-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S409600x100 : Shape := ⟨2, ![409600, 100]⟩
abbrev S2x655360 : Shape := ⟨2, ![2, 655360]⟩
abbrev S2x65536 : Shape := ⟨2, ![2, 65536]⟩
abbrev S100x256 : Shape := ⟨2, ![100, 256]⟩
abbrev S256 : Shape := ⟨1, ![256]⟩
abbrev S256x47 : Shape := ⟨2, ![256, 47]⟩
abbrev S47 : Shape := ⟨1, ![47]⟩
abbrev S_ : Shape := ⟨0, ![]⟩

class Facts : Prop where
  bcast_S_S409600x100 : S_.BroadcastsInDim S409600x100 (![] : Fin 0 → Fin S409600x100.rank)
  reducesTo_S409600x100_S_d0_1 : S409600x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg6 : FVec F S47 .f32) (main_v13 : IVec S_ 1) (main_v16 : IVec S256x47 1) : IVec S_ 1 :=
  let main_c_5 : IVec S_ 1 := constantI S_ 1 1#1
  let main_v17 : IVec S_ 1 := (fun x v => Host.reduce IntOp.andi x v reducesTo_S256x47_S_d0_1 h_S_) main_v16 main_c_5
  let main_v18 : IVec S_ 1 := andi main_v13 main_v17
  let main_v19 : FVec F S47 .f32 := Host.absf main_arg6
  let main_cst_6 : FVec F S_ .f32 := constant S_ .f32 0x7F800000#32
  let main_v20 : FVec F S47 .f32 := broadcastInDim S47 ![] bcast_S_S47 main_cst_6
  let main_v21 : IVec S47 1 := cmpf .olt main_v19 main_v20
  let main_c_7 : IVec S_ 1 := constantI S_ 1 1#1
  let main_v22 : IVec S_ 1 := (fun x v => Host.reduce IntOp.andi x v reducesTo_S47_S_d0 h_S_) main_v21 main_c_7
  let main_v23 : IVec S_ 1 := andi main_v18 main_v22
  main_v23

def fn {F : FTy → Type} [FloatOps F] (main_arg0 : FVec F S409600x100 .f32) (main_arg1 : IVec S2x655360 32) (main_arg2 : IVec S2x65536 32) (main_arg3 : FVec F S100x256 .f32) (main_arg4 : FVec F S256 .f32) (main_arg5 : FVec F S256x47 .f32) (main_arg6 : FVec F S47 .f32) : IVec S_ 1 :=
  let main_v0 : FVec F S409600x100 .f32 := Host.absf main_arg0
  let main_cst : FVec F S_ .f32 := constant S_ .f32 0x7F800000#32
  let main_v1 : FVec F S409600x100 .f32 := broadcastInDim S409600x100 ![] bcast_S_S409600x100 main_cst
  let main_v2 : IVec S409600x100 1 := cmpf .olt main_v0 main_v1
  let main_c : IVec S_ 1 := constantI S_ 1 1#1
  let main_v3 : IVec S_ 1 := (fun x v => Host.reduce IntOp.andi x v reducesTo_S409600x100_S_d0_1 h_S_) main_v2 main_c
  let main_v4 : FVec F S100x256 .f32 := Host.absf main_arg3
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x47 .f32 := Host.absf main_arg5
  let main_cst_4 : FVec F S_ .f32 := constant S_ .f32 0x7F800000#32
  let main_v15 : FVec F S256x47 .f32 := broadcastInDim S256x47 ![] bcast_S_S256x47 main_cst_4
  let main_v16 : IVec S256x47 1 := cmpf .olt main_v14 main_v15
  fn_part1 (F := F) main_arg6 main_v13 main_v16
-- ==== Kernel.lean ====
abbrev S409600x100 : Shape := ⟨2, ![409600, 100]⟩
abbrev S2x655360 : Shape := ⟨2, ![2, 655360]⟩
abbrev S2x65536 : Shape := ⟨2, ![2, 65536]⟩
abbrev S100x256 : Shape := ⟨2, ![100, 256]⟩
abbrev S256 : Shape := ⟨1, ![256]⟩
abbrev S256x47 : Shape := ⟨2, ![256, 47]⟩
abbrev S47 : Shape := ⟨1, ![47]⟩
abbrev S409600x256 : Shape := ⟨2, ![409600, 256]⟩
abbrev S8192x100 : Shape := ⟨2, ![8192, 100]⟩
abbrev S8192x256 : Shape := ⟨2, ![8192, 256]⟩
abbrev S1x655360 : Shape := ⟨2, ![1, 655360]⟩
abbrev S655360 : Shape := ⟨1, ![655360]⟩
abbrev S_ : Shape := ⟨0, ![]⟩
abbrev S409600 : Shape := ⟨1, ![409600]⟩
abbrev S655360x1 : Shape := ⟨2, ![655360, 1]⟩
abbrev S655360x256 : Shape := ⟨2, ![655360, 256]⟩
abbrev S40960x256 : Shape := ⟨2, ![40960, 256]⟩
abbrev S1x256 : Shape := ⟨2, ![1, 256]⟩
abbrev S40960x47 : Shape := ⟨2, ![40960, 47]⟩
abbrev S4096x256 : Shape := ⟨2, ![4096, 256]⟩
abbrev S4096x47 : Shape := ⟨2, ![4096, 47]⟩
abbrev S1x65536 : Shape := ⟨2, ![1, 65536]⟩
abbrev S65536 : Shape := ⟨1, ![65536]⟩
abbrev S40960 : Shape := ⟨1, ![40960]⟩
abbrev S65536x1 : Shape := ⟨2, ![65536, 1]⟩
abbrev S65536x47 : Shape := ⟨2, ![65536, 47]⟩
abbrev S1x47 : Shape := ⟨2, ![1, 47]⟩

abbrev nBuf : Space → Nat
  | .hbm => 130
  | .vmem => 10
  | .smem => 0
  | _ => 0

abbrev hbmTy0_0 (i : Nat) : BufTy := match i % 128 with
  | 0 => ⟨S409600x100, .f32⟩
  | 1 => ⟨S2x655360, .i32⟩
  | 2 => ⟨S2x65536, .i32⟩
  | 3 => ⟨S100x256, .f32⟩
  | 4 => ⟨S256, .f32⟩
  | 5 => ⟨S256x47, .f32⟩
  | 6 => ⟨S47, .f32⟩
  | 7 => ⟨S409600x256, .f32⟩
  | 8 => ⟨S1x655360, .i32⟩
  | 9 => ⟨S655360, .i32⟩
  | 10 => ⟨S1x655360, .i32⟩
  | 11 => ⟨S655360, .i32⟩
  | 12 => ⟨S_, .f32⟩
  | 13 => ⟨S655360, .f32⟩
  | 14 => ⟨S_, .f32⟩
  | 15 => ⟨S409600, .f32⟩
  | 16 => ⟨S655360x1, .i32⟩
  | 17 => ⟨S409600, .f32⟩
  | 18 => ⟨S_, .f32⟩
  | 19 => ⟨S409600, .f32⟩
  | 20 => ⟨S409600, .i1⟩
  | 21 => ⟨S_, .f32⟩
  | 22 => ⟨S409600, .f32⟩
  | 23 => ⟨S409600, .f32⟩
  | 24 => ⟨S409600, .f32⟩
  | 25 => ⟨S_, .f32⟩
  | 26 => ⟨S_, .f32⟩
  | 27 => ⟨S409600, .f32⟩
  | 28 => ⟨S409600, .f32⟩
  | 29 => ⟨S_, .i32⟩
  | 30 => ⟨S655360, .i32⟩
  | 31 => ⟨S655360, .i1⟩
  | 32 => ⟨S_, .i32⟩
  | 33 => ⟨S655360, .i32⟩
  | 34 => ⟨S655360, .i32⟩
  | 35 => ⟨S655360, .i32⟩
  | 36 => ⟨S655360x1, .i32⟩
  | 37 => ⟨S655360, .f32⟩
  | 38 => ⟨S_, .i32⟩
  | 39 => ⟨S655360, .i32⟩
  | 40 => ⟨S655360, .i1⟩
  | 41 => ⟨S_, .i32⟩
  | 42 => ⟨S655360, .i32⟩
  | 43 => ⟨S655360, .i32⟩
  | 44 => ⟨S655360, .i32⟩
  | 45 => ⟨S655360x1, .i32⟩
  | 46 => ⟨S655360, .f32⟩
  | 47 => ⟨S655360, .f32⟩
  | 48 => ⟨S_, .i32⟩
  | 49 => ⟨S655360, .i32⟩
  | 50 => ⟨S655360, .i1⟩
  | 51 => ⟨S_, .i32⟩
  | 52 => ⟨S655360, .i32⟩
  | 53 => ⟨S655360, .i32⟩
  | 54 => ⟨S655360, .i32⟩
  | 55 => ⟨S655360x1, .i32⟩
  | 56 => ⟨S655360x256, .f32⟩
  | 57 => ⟨S655360x1, .f32⟩
  | 58 => ⟨S655360x256, .f32⟩
  | 59 => ⟨S655360x256, .f32⟩
  | 60 => ⟨S_, .f32⟩
  | 61 => ⟨S40960x256, .f32⟩
  | 62 => ⟨S655360x1, .i32⟩
  | 63 => ⟨S40960x256, .f32⟩
  | 64 => ⟨S1x256, .f32⟩
  | 65 => ⟨S40960x256, .f32⟩
  | 66 => ⟨S40960x256, .f32⟩
  | 67 => ⟨S_, .f32⟩
  | 68 => ⟨S40960x256, .f32⟩
  | 69 => ⟨S40960x256, .f32⟩
  | 70 => ⟨S40960x47, .f32⟩
  | 71 => ⟨S1x65536, .i32⟩
  | 72 => ⟨S65536, .i32⟩
  | 73 => ⟨S1x65536, .i32⟩
  | 74 => ⟨S65536, .i32⟩
  | 75 => ⟨S_, .f32⟩
  | 76 => ⟨S65536, .f32⟩
  | 77 => ⟨S_, .f32⟩
  | 78 => ⟨S40960, .f32⟩
  | 79 => ⟨S65536x1, .i32⟩
  | 80 => ⟨S40960, .f32⟩
  | 81 => ⟨S_, .f32⟩
  | 82 => ⟨S40960, .f32⟩
  | 83 => ⟨S40960, .i1⟩
  | 84 => ⟨S_, .f32⟩
  | 85 => ⟨S40960, .f32⟩
  | 86 => ⟨S40960, .f32⟩
  | 87 => ⟨S40960, .f32⟩
  | 88 => ⟨S_, .f32⟩
  | 89 => ⟨S_, .f32⟩
  | 90 => ⟨S40960, .f32⟩
  | 91 => ⟨S40960, .f32⟩
  | 92 => ⟨S_, .i32⟩
  | 93 => ⟨S65536, .i32⟩
  | 94 => ⟨S65536, .i1⟩
  | 95 => ⟨S_, .i32⟩
  | 96 => ⟨S65536, .i32⟩
  | 97 => ⟨S65536, .i32⟩
  | 98 => ⟨S65536, .i32⟩
  | 99 => ⟨S65536x1, .i32⟩
  | 100 => ⟨S65536, .f32⟩
  | 101 => ⟨S_, .i32⟩
  | 102 => ⟨S65536, .i32⟩
  | 103 => ⟨S65536, .i1⟩
  | 104 => ⟨S_, .i32⟩
  | 105 => ⟨S65536, .i32⟩
  | 106 => ⟨S65536, .i32⟩
  | 107 => ⟨S65536, .i32⟩
  | 108 => ⟨S65536x1, .i32⟩
  | 109 => ⟨S65536, .f32⟩
  | 110 => ⟨S65536, .f32⟩
  | 111 => ⟨S_, .i32⟩
  | 112 => ⟨S65536, .i32⟩
  | 113 => ⟨S65536, .i1⟩
  | 114 => ⟨S_, .i32⟩
  | 115 => ⟨S65536, .i32⟩
  | 116 => ⟨S65536, .i32⟩
  | 117 => ⟨S65536, .i32⟩
  | 118 => ⟨S65536x1, .i32⟩
  | 119 => ⟨S65536x47, .f32⟩
  | 120 => ⟨S65536x1, .f32⟩
  | 121 => ⟨S65536x47, .f32⟩
  | 122 => ⟨S65536x47, .f32⟩
  | 123 => ⟨S_, .f32⟩
  | 124 => ⟨S4096x47, .f32⟩
  | 125 => ⟨S65536x1, .i32⟩
  | 126 => ⟨S4096x47, .f32⟩
  | 127 => ⟨S1x47, .f32⟩
  | _ => ⟨S409600x100, .f32⟩

abbrev hbmTy0_1 (i : Nat) : BufTy := match i % 128 with
  | 0 => ⟨S4096x47, .f32⟩
  | 1 => ⟨S4096x47, .f32⟩
  | _ => ⟨S409600x100, .f32⟩

abbrev hbmTy (i : Nat) : BufTy := match i / 128 with
  | 0 => hbmTy0_0 i
  | 1 => hbmTy0_1 i
  | _ => ⟨S409600x100, .f32⟩

abbrev bufTy : (tb : Table) → Fin (tcTables nBuf tb) → BufTy
  | .hbm, ⟨i, _⟩ => hbmTy i
  | .local _ .vmem, ⟨0, _⟩ => ⟨S8192x100, .f32⟩
  | .local _ .vmem, ⟨1, _⟩ => ⟨S8192x100, .f32⟩
  | .local _ .vmem, ⟨2, _⟩ => ⟨S100x256, .f32⟩
  | .local _ .vmem, ⟨3, _⟩ => ⟨S8192x256, .f32⟩
  | .local _ .vmem, ⟨4, _⟩ => ⟨S8192x256, .f32⟩
  | .local _ .vmem, ⟨5, _⟩ => ⟨S4096x256, .f32⟩
  | .local _ .vmem, ⟨6, _⟩ => ⟨S4096x256, .f32⟩
  | .local _ .vmem, ⟨7, _⟩ => ⟨S256x47, .f32⟩
  | .local _ .vmem, ⟨8, _⟩ => ⟨S4096x47, .f32⟩
  | .local _ .vmem, ⟨9, _⟩ => ⟨S4096x47, .f32⟩
  | _, _ => ⟨S409600x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_c_16 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_17 : Ref sig .tc := ⟨.hbm, 101, rfl⟩
abbrev main_v69 : Ref sig .tc := ⟨.hbm, 102, rfl⟩
abbrev main_v70 : Ref sig .tc := ⟨.hbm, 103, rfl⟩
abbrev main_c_18 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_c_20 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_21 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x47 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x47 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8192x100_S8192x100_0_0 : ∀ a, (![0, 0] : Fin 2 → Nat) a + S8192x100.size a ≤ S8192x100.size a
  h_S8192x100 : 0 < S8192x100.numel
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S8192x256_S8192x256_0_0 : ∀ a, (![0, 0] : Fin 2 → Nat) a + S8192x256.size a ≤ S8192x256.size a
  h_S8192x256 : 0 < S8192x256.numel
  slices_S2x655360_S1x655360_0_0 : S2x655360.Slices ![0, 0] S1x655360
  shapeCasts_S1x655360_S655360 : S1x655360.ShapeCasts S655360
  slices_S2x655360_S1x655360_1_0 : S2x655360.Slices ![1, 0] S1x655360
  bcast_S_S655360 : S_.BroadcastsInDim S655360 (![] : Fin 0 → Fin S655360.rank)
  bcast_S_S409600 : S_.BroadcastsInDim S409600 (![] : Fin 0 → Fin S409600.rank)
  bcast_S655360_S655360x1_0 : S655360.BroadcastsInDim S655360x1 (![0] : Fin 1 → Fin S655360x1.rank)
  bcast_S655360x1_S655360x256_0_1 : S655360x1.BroadcastsInDim S655360x256 (![0, 1] : Fin 2 → Fin S655360x256.rank)
  bcast_S_S40960x256 : S_.BroadcastsInDim S40960x256 (![] : Fin 0 → Fin S40960x256.rank)
  bcast_S256_S1x256_1 : S256.BroadcastsInDim S1x256 (![1] : Fin 1 → Fin S1x256.rank)
  bcast_S1x256_S40960x256_0_1 : S1x256.BroadcastsInDim S40960x256 (![0, 1] : Fin 2 → Fin S40960x256.rank)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x47_S256x47_0_0 : ∀ a, (![0, 0] : Fin 2 → Nat) a + S256x47.size a ≤ S256x47.size a
  h_S256x47 : 0 < S256x47.numel
  inb_S4096x47_S4096x47_0_0 : ∀ a, (![0, 0] : Fin 2 → Nat) a + S4096x47.size a ≤ S4096x47.size a
  h_S4096x47 : 0 < S4096x47.numel
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S40960 : S_.BroadcastsInDim S40960 (![] : Fin 0 → Fin S40960.rank)
  bcast_S65536_S65536x1_0 : S65536.BroadcastsInDim S65536x1 (![0] : Fin 1 → Fin S65536x1.rank)
  bcast_S65536x1_S65536x47_0_1 : S65536x1.BroadcastsInDim S65536x47 (![0, 1] : Fin 2 → Fin S65536x47.rank)
  bcast_S_S4096x47 : S_.BroadcastsInDim S4096x47 (![] : Fin 0 → Fin S4096x47.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  dot_S8192x100_S100x256_S8192x256_1_0_0_1_n_n_wf : DotDims.WF S8192x100 S100x256 S8192x256 [1] [0] [0] [1] [] []
  scatter_S409600_S655360x1_S655360_n_0_0_1_wf : ScatterDims.WF S409600 S655360x1 S655360 [] [0] [0] 1
  gather_S409600_S655360x1_S655360_n_0_n_n_0_1_1_wf : GatherDims.WF S409600 S655360x1 S655360 [] [0] [] [0] [] 1 ![1]
  gather_S409600x256_S655360x1_S655360x256_1_0_n_n_0_1_1256_wf : GatherDims.WF S409600x256 S655360x1 S655360x256 [1] [0] [] [0] [] 1 ![1, 256]
  scatter_S40960x256_S655360x1_S655360x256_1_0_0_1_wf : ScatterDims.WF S40960x256 S655360x1 S655360x256 [1] [0] [0] 1
  dot_S4096x256_S256x47_S4096x47_1_0_0_1_n_n_wf : DotDims.WF S4096x256 S256x47 S4096x47 [1] [0] [0] [1] [] []
  scatter_S40960_S65536x1_S65536_n_0_0_1_wf : ScatterDims.WF S40960 S65536x1 S65536 [] [0] [0] 1
  gather_S40960_S65536x1_S65536_n_0_n_n_0_1_1_wf : GatherDims.WF S40960 S65536x1 S65536 [] [0] [] [0] [] 1 ![1]
  gather_S40960x47_S65536x1_S65536x47_1_0_n_n_0_1_147_wf : GatherDims.WF S40960x47 S65536x1 S65536x47 [1] [0] [] [0] [] 1 ![1, 47]
  scatter_S4096x47_S65536x1_S65536x47_1_0_0_1_wf : ScatterDims.WF S4096x47 S65536x1 S65536x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x100.size a ≤ S409600x100.size a
  hwx0_0 : ∀ i : grid0.Coords, EltTy.bits .f32 = 32 ∨ (Rect.block (s := S409600x100) S8192x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x256.size a ≤ S100x256.size a
  hwx0_1 : ∀ i : grid0.Coords, EltTy.bits .f32 = 32 ∨ (Rect.block (s := S100x256) S100x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S409600x256.size a
  hwx0_2 : ∀ i : grid0.Coords, EltTy.bits .f32 = 32 ∨ (Rect.block (s := S409600x256) S8192x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S40960x256.size a
  hwx1_0 : ∀ i : grid1.Coords, EltTy.bits .f32 = 32 ∨ (Rect.block (s := S40960x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x47.size a ≤ S256x47.size a
  hwx1_1 : ∀ i : grid1.Coords, EltTy.bits .f32 = 32 ∨ (Rect.block (s := S256x47) S256x47.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x47.size a ≤ S40960x47.size a
  hwx1_2 : ∀ i : grid1.Coords, EltTy.bits .f32 = 32 ∨ (Rect.block (s := S40960x47) S4096x47.size (cc1_transform_2 i) (hinb1_2 i)).WholeWords (EltTy.packing .f32)

variable [Facts₀]

def dot_S8192x100_S100x256_S8192x256_1_0_0_1_n_n : DotDims S8192x100 S100x256 S8192x256 where
  lhsContracting := [1]
  rhsContracting := [0]
  lhsNonContracting := [0]
  rhsNonContracting := [1]
  lhsBatch := []
  rhsBatch := []
  wf := dot_S8192x100_S100x256_S8192x256_1_0_0_1_n_n_wf
def scatter_S409600_S655360x1_S655360_n_0_0_1 : ScatterDims S409600 S655360x1 S655360 where
  updateWindowDims := []
  insertedWindowDims := [0]
  scatterDimsToOperandDims := [0]
  indexVectorDim := 1
  wf := scatter_S409600_S655360x1_S655360_n_0_0_1_wf
def gather_S409600_S655360x1_S655360_n_0_n_n_0_1_1 : GatherDims S409600 S655360x1 S655360 where
  offsetDims := []
  collapsedSliceDims := [0]
  operandBatchingDims := []
  startIndicesBatchingDims := []
  startIndexMap := [0]
  indexVectorDim := 1
  sliceSizes := ![1]
  wf := gather_S409600_S655360x1_S655360_n_0_n_n_0_1_1_wf
def gather_S409600x256_S655360x1_S655360x256_1_0_n_n_0_1_1256 : GatherDims S409600x256 S655360x1 S655360x256 where
  offsetDims := [1]
  collapsedSliceDims := [0]
  operandBatchingDims := []
  startIndicesBatchingDims := []
  startIndexMap := [0]
  indexVectorDim := 1
  sliceSizes := ![1, 256]
  wf := gather_S409600x256_S655360x1_S655360x256_1_0_n_n_0_1_1256_wf
def scatter_S40960x256_S655360x1_S655360x256_1_0_0_1 : ScatterDims S40960x256 S655360x1 S655360x256 where
  updateWindowDims := [1]
  insertedWindowDims := [0]
  scatterDimsToOperandDims := [0]
  indexVectorDim := 1
  wf := scatter_S40960x256_S655360x1_S655360x256_1_0_0_1_wf
def dot_S4096x256_S256x47_S4096x47_1_0_0_1_n_n : DotDims S4096x256 S256x47 S4096x47 where
  lhsContracting := [1]
  rhsContracting := [0]
  lhsNonContracting := [0]
  rhsNonContracting := [1]
  lhsBatch := []
  rhsBatch := []
  wf := dot_S4096x256_S256x47_S4096x47_1_0_0_1_n_n_wf
def scatter_S40960_S65536x1_S65536_n_0_0_1 : ScatterDims S40960 S65536x1 S65536 where
  updateWindowDims := []
  insertedWindowDims := [0]
  scatterDimsToOperandDims := [0]
  indexVectorDim := 1
  wf := scatter_S40960_S65536x1_S65536_n_0_0_1_wf
def gather_S40960_S65536x1_S65536_n_0_n_n_0_1_1 : GatherDims S40960 S65536x1 S65536 where
  offsetDims := []
  collapsedSliceDims := [0]
  operandBatchingDims := []
  startIndicesBatchingDims := []
  startIndexMap := [0]
  indexVectorDim := 1
  sliceSizes := ![1]
  wf := gather_S40960_S65536x1_S65536_n_0_n_n_0_1_1_wf
def gather_S40960x47_S65536x1_S65536x47_1_0_n_n_0_1_147 : GatherDims S40960x47 S65536x1 S65536x47 where
  offsetDims := [1]
  collapsedSliceDims := [0]
  operandBatchingDims := []
  startIndicesBatchingDims := []
  startIndexMap := [0]
  indexVectorDim := 1
  sliceSizes := ![1, 47]
  wf := gather_S40960x47_S65536x1_S65536x47_1_0_n_n_0_1_147_wf
def scatter_S4096x47_S65536x1_S65536x47_1_0_0_1 : ScatterDims S4096x47 S65536x1 S65536x47 where
  updateWindowDims := [1]
  insertedWindowDims := [0]
  scatterDimsToOperandDims := [0]
  indexVectorDim := 1
  wf := scatter_S4096x47_S65536x1_S65536x47_1_0_0_1_wf

abbrev win0_0 : Pipeline.Window sig grid0 :=
  Pipeline.Window.ofSpec (Memref.whole main_arg0) S8192x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x47.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4096x47.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S409600x100 : Shape := ⟨2, ![409600, 100]⟩
abbrev S2x655360 : Shape := ⟨2, ![2, 655360]⟩
abbrev S2x65536 : Shape := ⟨2, ![2, 65536]⟩
abbrev S100x256 : Shape := ⟨2, ![100, 256]⟩
abbrev S256 : Shape := ⟨1, ![256]⟩
abbrev S256x47 : Shape := ⟨2, ![256, 47]⟩
abbrev S47 : Shape := ⟨1, ![47]⟩
abbrev S1x655360 : Shape := ⟨2, ![1, 655360]⟩
abbrev S655360 : Shape := ⟨1, ![655360]⟩
abbrev S_ : Shape := ⟨0, ![]⟩
abbrev S409600 : Shape := ⟨1, ![409600]⟩
abbrev S655360x1 : Shape := ⟨2, ![655360, 1]⟩
abbrev S409600x256 : Shape := ⟨2, ![409600, 256]⟩
abbrev S655360x256 : Shape := ⟨2, ![655360, 256]⟩
abbrev S40960x256 : Shape := ⟨2, ![40960, 256]⟩
abbrev S1x256 : Shape := ⟨2, ![1, 256]⟩
abbrev S1x65536 : Shape := ⟨2, ![1, 65536]⟩
abbrev S65536 : Shape := ⟨1, ![65536]⟩
abbrev S40960 : Shape := ⟨1, ![40960]⟩
abbrev S65536x1 : Shape := ⟨2, ![65536, 1]⟩
abbrev S40960x47 : Shape := ⟨2, ![40960, 47]⟩
abbrev S65536x47 : Shape := ⟨2, ![65536, 47]⟩
abbrev S4096x47 : Shape := ⟨2, ![4096, 47]⟩
abbrev S1x47 : Shape := ⟨2, ![1, 47]⟩

abbrev nBuf : Space → Nat
  | .hbm => 130
  | .vmem => 0
  | .smem => 0
  | _ => 0

abbrev hbmTy0_0 (i : Nat) : BufTy := match i % 128 with
  | 0 => ⟨S409600x100, .f32⟩
  | 1 => ⟨S2x655360, .i32⟩
  | 2 => ⟨S2x65536, .i32⟩
  | 3 => ⟨S100x256, .f32⟩
  | 4 => ⟨S256, .f32⟩
  | 5 => ⟨S256x47, .f32⟩
  | 6 => ⟨S47, .f32⟩
  | 7 => ⟨S1x655360, .i32⟩
  | 8 => ⟨S655360, .i32⟩
  | 9 => ⟨S1x655360, .i32⟩
  | 10 => ⟨S655360, .i32⟩
  | 11 => ⟨S_, .f32⟩
  | 12 => ⟨S655360, .f32⟩
  | 13 => ⟨S_, .f32⟩
  | 14 => ⟨S409600, .f32⟩
  | 15 => ⟨S655360x1, .i32⟩
  | 16 => ⟨S409600, .f32⟩
  | 17 => ⟨S_, .f32⟩
  | 18 => ⟨S409600, .f32⟩
  | 19 => ⟨S409600, .i1⟩
  | 20 => ⟨S_, .f32⟩
  | 21 => ⟨S409600, .f32⟩
  | 22 => ⟨S409600, .f32⟩
  | 23 => ⟨S409600, .f32⟩
  | 24 => ⟨S_, .f32⟩
  | 25 => ⟨S_, .f32⟩
  | 26 => ⟨S409600, .f32⟩
  | 27 => ⟨S409600, .f32⟩
  | 28 => ⟨S_, .i32⟩
  | 29 => ⟨S655360, .i32⟩
  | 30 => ⟨S655360, .i1⟩
  | 31 => ⟨S_, .i32⟩
  | 32 => ⟨S655360, .i32⟩
  | 33 => ⟨S655360, .i32⟩
  | 34 => ⟨S655360, .i32⟩
  | 35 => ⟨S655360x1, .i32⟩
  | 36 => ⟨S655360, .f32⟩
  | 37 => ⟨S_, .i32⟩
  | 38 => ⟨S655360, .i32⟩
  | 39 => ⟨S655360, .i1⟩
  | 40 => ⟨S_, .i32⟩
  | 41 => ⟨S655360, .i32⟩
  | 42 => ⟨S655360, .i32⟩
  | 43 => ⟨S655360, .i32⟩
  | 44 => ⟨S655360x1, .i32⟩
  | 45 => ⟨S655360, .f32⟩
  | 46 => ⟨S655360, .f32⟩
  | 47 => ⟨S409600x256, .f32⟩
  | 48 => ⟨S_, .i32⟩
  | 49 => ⟨S655360, .i32⟩
  | 50 => ⟨S655360, .i1⟩
  | 51 => ⟨S_, .i32⟩
  | 52 => ⟨S655360, .i32⟩
  | 53 => ⟨S655360, .i32⟩
  | 54 => ⟨S655360, .i32⟩
  | 55 => ⟨S655360x1, .i32⟩
  | 56 => ⟨S655360x256, .f32⟩
  | 57 => ⟨S655360x1, .f32⟩
  | 58 => ⟨S655360x256, .f32⟩
  | 59 => ⟨S655360x256, .f32⟩
  | 60 => ⟨S_, .f32⟩
  | 61 => ⟨S40960x256, .f32⟩
  | 62 => ⟨S655360x1, .i32⟩
  | 63 => ⟨S40960x256, .f32⟩
  | 64 => ⟨S1x256, .f32⟩
  | 65 => ⟨S40960x256, .f32⟩
  | 66 => ⟨S40960x256, .f32⟩
  | 67 => ⟨S_, .f32⟩
  | 68 => ⟨S40960x256, .f32⟩
  | 69 => ⟨S40960x256, .f32⟩
  | 70 => ⟨S1x65536, .i32⟩
  | 71 => ⟨S65536, .i32⟩
  | 72 => ⟨S1x65536, .i32⟩
  | 73 => ⟨S65536, .i32⟩
  | 74 => ⟨S_, .f32⟩
  | 75 => ⟨S65536, .f32⟩
  | 76 => ⟨S_, .f32⟩
  | 77 => ⟨S40960, .f32⟩
  | 78 => ⟨S65536x1, .i32⟩
  | 79 => ⟨S40960, .f32⟩
  | 80 => ⟨S_, .f32⟩
  | 81 => ⟨S40960, .f32⟩
  | 82 => ⟨S40960, .i1⟩
  | 83 => ⟨S_, .f32⟩
  | 84 => ⟨S40960, .f32⟩
  | 85 => ⟨S40960, .f32⟩
  | 86 => ⟨S40960, .f32⟩
  | 87 => ⟨S_, .f32⟩
  | 88 => ⟨S_, .f32⟩
  | 89 => ⟨S40960, .f32⟩
  | 90 => ⟨S40960, .f32⟩
  | 91 => ⟨S_, .i32⟩
  | 92 => ⟨S65536, .i32⟩
  | 93 => ⟨S65536, .i1⟩
  | 94 => ⟨S_, .i32⟩
  | 95 => ⟨S65536, .i32⟩
  | 96 => ⟨S65536, .i32⟩
  | 97 => ⟨S65536, .i32⟩
  | 98 => ⟨S65536x1, .i32⟩
  | 99 => ⟨S65536, .f32⟩
  | 100 => ⟨S_, .i32⟩
  | 101 => ⟨S65536, .i32⟩
  | 102 => ⟨S65536, .i1⟩
  | 103 => ⟨S_, .i32⟩
  | 104 => ⟨S65536, .i32⟩
  | 105 => ⟨S65536, .i32⟩
  | 106 => ⟨S65536, .i32⟩
  | 107 => ⟨S65536x1, .i32⟩
  | 108 => ⟨S65536, .f32⟩
  | 109 => ⟨S65536, .f32⟩
  | 110 => ⟨S40960x47, .f32⟩
  | 111 => ⟨S_, .i32⟩
  | 112 => ⟨S65536, .i32⟩
  | 113 => ⟨S65536, .i1⟩
  | 114 => ⟨S_, .i32⟩
  | 115 => ⟨S65536, .i32⟩
  | 116 => ⟨S65536, .i32⟩
  | 117 => ⟨S65536, .i32⟩
  | 118 => ⟨S65536x1, .i32⟩
  | 119 => ⟨S65536x47, .f32⟩
  | 120 => ⟨S65536x1, .f32⟩
  | 121 => ⟨S65536x47, .f32⟩
  | 122 => ⟨S65536x47, .f32⟩
  | 123 => ⟨S_, .f32⟩
  | 124 => ⟨S4096x47, .f32⟩
  | 125 => ⟨S65536x1, .i32⟩
  | 126 => ⟨S4096x47, .f32⟩
  | 127 => ⟨S1x47, .f32⟩
  | _ => ⟨S409600x100, .f32⟩

abbrev hbmTy0_1 (i : Nat) : BufTy := match i % 128 with
  | 0 => ⟨S4096x47, .f32⟩
  | 1 => ⟨S4096x47, .f32⟩
  | _ => ⟨S409600x100, .f32⟩

abbrev hbmTy (i : Nat) : BufTy := match i / 128 with
  | 0 => hbmTy0_0 i
  | 1 => hbmTy0_1 i
  | _ => ⟨S409600x100, .f32⟩

abbrev bufTy : (tb : Table) → Fin (tcTables nBuf tb) → BufTy
  | .hbm, ⟨i, _⟩ => hbmTy i
  | _, _ => ⟨S409600x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_call2_v0 : Ref sig .tc := ⟨.hbm, 88, rfl⟩
abbrev main_call2_v1 : Ref sig .tc := ⟨.hbm, 89, rfl⟩
abbrev main_v60 : Ref sig .tc := ⟨.hbm, 90, rfl⟩
abbrev main_c_15 : Ref sig .tc := ⟨.hbm, 91, rfl⟩
abbrev main_v61 : Ref sig .tc := ⟨.hbm, 92, rfl⟩
abbrev main_v62 : Ref sig .tc := ⟨.hbm, 93, rfl⟩
abbrev main_c_16 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_17 : Ref sig .tc := ⟨.hbm, 100, rfl⟩
abbrev main_v68 : Ref sig .tc := ⟨.hbm, 101, rfl⟩
abbrev main_v69 : Ref sig .tc := ⟨.hbm, 102, rfl⟩
abbrev main_c_18 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_c_20 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_21 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  slices_S2x655360_S1x655360_0_0 : S2x655360.Slices ![0, 0] S1x655360
  shapeCasts_S1x655360_S655360 : S1x655360.ShapeCasts S655360
  slices_S2x655360_S1x655360_1_0 : S2x655360.Slices ![1, 0] S1x655360
  bcast_S_S655360 : S_.BroadcastsInDim S655360 (![] : Fin 0 → Fin S655360.rank)
  bcast_S_S409600 : S_.BroadcastsInDim S409600 (![] : Fin 0 → Fin S409600.rank)
  bcast_S655360_S655360x1_0 : S655360.BroadcastsInDim S655360x1 (![0] : Fin 1 → Fin S655360x1.rank)
  bcast_S655360x1_S655360x256_0_1 : S655360x1.BroadcastsInDim S655360x256 (![0, 1] : Fin 2 → Fin S655360x256.rank)
  bcast_S_S40960x256 : S_.BroadcastsInDim S40960x256 (![] : Fin 0 → Fin S40960x256.rank)
  bcast_S256_S1x256_1 : S256.BroadcastsInDim S1x256 (![1] : Fin 1 → Fin S1x256.rank)
  bcast_S1x256_S40960x256_0_1 : S1x256.BroadcastsInDim S40960x256 (![0, 1] : Fin 2 → Fin S40960x256.rank)
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S40960 : S_.BroadcastsInDim S40960 (![] : Fin 0 → Fin S40960.rank)
  bcast_S65536_S65536x1_0 : S65536.BroadcastsInDim S65536x1 (![0] : Fin 1 → Fin S65536x1.rank)
  bcast_S65536x1_S65536x47_0_1 : S65536x1.BroadcastsInDim S65536x47 (![0, 1] : Fin 2 → Fin S65536x47.rank)
  bcast_S_S4096x47 : S_.BroadcastsInDim S4096x47 (![] : Fin 0 → Fin S4096x47.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  scatter_S409600_S655360x1_S655360_n_0_0_1_wf : ScatterDims.WF S409600 S655360x1 S655360 [] [0] [0] 1
  gather_S409600_S655360x1_S655360_n_0_n_n_0_1_1_wf : GatherDims.WF S409600 S655360x1 S655360 [] [0] [] [0] [] 1 ![1]
  dot_S409600x100_S100x256_S409600x256_1_0_0_1_n_n_wf : DotDims.WF S409600x100 S100x256 S409600x256 [1] [0] [0] [1] [] []
  gather_S409600x256_S655360x1_S655360x256_1_0_n_n_0_1_1256_wf : GatherDims.WF S409600x256 S655360x1 S655360x256 [1] [0] [] [0] [] 1 ![1, 256]
  scatter_S40960x256_S655360x1_S655360x256_1_0_0_1_wf : ScatterDims.WF S40960x256 S655360x1 S655360x256 [1] [0] [0] 1
  scatter_S40960_S65536x1_S65536_n_0_0_1_wf : ScatterDims.WF S40960 S65536x1 S65536 [] [0] [0] 1
  gather_S40960_S65536x1_S65536_n_0_n_n_0_1_1_wf : GatherDims.WF S40960 S65536x1 S65536 [] [0] [] [0] [] 1 ![1]
  dot_S40960x256_S256x47_S40960x47_1_0_0_1_n_n_wf : DotDims.WF S40960x256 S256x47 S40960x47 [1] [0] [0] [1] [] []
  gather_S40960x47_S65536x1_S65536x47_1_0_n_n_0_1_147_wf : GatherDims.WF S40960x47 S65536x1 S65536x47 [1] [0] [] [0] [] 1 ![1, 47]
  scatter_S4096x47_S65536x1_S65536x47_1_0_0_1_wf : ScatterDims.WF S4096x47 S65536x1 S65536x47 [1] [0] [0] 1

variable [Facts₀]

def scatter_S409600_S655360x1_S655360_n_0_0_1 : ScatterDims S409600 S655360x1 S655360 where
  updateWindowDims := []
  insertedWindowDims := [0]
  scatterDimsToOperandDims := [0]
  indexVectorDim := 1
  wf := scatter_S409600_S655360x1_S655360_n_0_0_1_wf
def gather_S409600_S655360x1_S655360_n_0_n_n_0_1_1 : GatherDims S409600 S655360x1 S655360 where
  offsetDims := []
  collapsedSliceDims := [0]
  operandBatchingDims := []
  startIndicesBatchingDims := []
  startIndexMap := [0]
  indexVectorDim := 1
  sliceSizes := ![1]
  wf := gather_S409600_S655360x1_S655360_n_0_n_n_0_1_1_wf
def dot_S409600x100_S100x256_S409600x256_1_0_0_1_n_n : DotDims S409600x100 S100x256 S409600x256 where
  lhsContracting := [1]
  rhsContracting := [0]
  lhsNonContracting := [0]
  rhsNonContracting := [1]
  lhsBatch := []
  rhsBatch := []
  wf := dot_S409600x100_S100x256_S409600x256_1_0_0_1_n_n_wf
def gather_S409600x256_S655360x1_S655360x256_1_0_n_n_0_1_1256 : GatherDims S409600x256 S655360x1 S655360x256 where
  offsetDims := [1]
  collapsedSliceDims := [0]
  operandBatchingDims := []
  startIndicesBatchingDims := []
  startIndexMap := [0]
  indexVectorDim := 1
  sliceSizes := ![1, 256]
  wf := gather_S409600x256_S655360x1_S655360x256_1_0_n_n_0_1_1256_wf
def scatter_S40960x256_S655360x1_S655360x256_1_0_0_1 : ScatterDims S40960x256 S655360x1 S655360x256 where
  updateWindowDims := [1]
  insertedWindowDims := [0]
  scatterDimsToOperandDims := [0]
  indexVectorDim := 1
  wf := scatter_S40960x256_S655360x1_S655360x256_1_0_0_1_wf
def scatter_S40960_S65536x1_S65536_n_0_0_1 : ScatterDims S40960 S65536x1 S65536 where
  updateWindowDims := []
  insertedWindowDims := [0]
  scatterDimsToOperandDims := [0]
  indexVectorDim := 1
  wf := scatter_S40960_S65536x1_S65536_n_0_0_1_wf
def gather_S40960_S65536x1_S65536_n_0_n_n_0_1_1 : GatherDims S40960 S65536x1 S65536 where
  offsetDims := []
  collapsedSliceDims := [0]
  operandBatchingDims := []
  startIndicesBatchingDims := []
  startIndexMap := [0]
  indexVectorDim := 1
  sliceSizes := ![1]
  wf := gather_S40960_S65536x1_S65536_n_0_n_n_0_1_1_wf
def dot_S40960x256_S256x47_S40960x47_1_0_0_1_n_n : DotDims S40960x256 S256x47 S40960x47 where
  lhsContracting := [1]
  rhsContracting := [0]
  lhsNonContracting := [0]
  rhsNonContracting := [1]
  lhsBatch := []
  rhsBatch := []
  wf := dot_S40960x256_S256x47_S40960x47_1_0_0_1_n_n_wf
def gather_S40960x47_S65536x1_S65536x47_1_0_n_n_0_1_147 : GatherDims S40960x47 S65536x1 S65536x47 where
  offsetDims := [1]
  collapsedSliceDims := [0]
  operandBatchingDims := []
  startIndicesBatchingDims := []
  startIndexMap := [0]
  indexVectorDim := 1
  sliceSizes := ![1, 47]
  wf := gather_S40960x47_S65536x1_S65536x47_1_0_n_n_0_1_147_wf
def scatter_S4096x47_S65536x1_S65536x47_1_0_0_1 : ScatterDims S4096x47 S65536x1 S65536x47 where
  updateWindowDims := [1]
  insertedWindowDims := [0]
  scatterDimsToOperandDims := [0]
  indexVectorDim := 1
  wf := scatter_S4096x47_S65536x1_S65536x47_1_0_0_1_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«108367_j52364241273249_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.PlainProduct.lean ====
/-
  The plain product of an `M×K` array and a `K×N` array as ONE function of the two arrays: entry `(r, c)` is the sum
  over `k : Fin K` of `A (r, k) * B (k, c)` on the extended reals.

  At the ideal instance the host's `dot_general` with the plain dimension numbers is this function, and so is the
  kernel's matrix-unit product into a zero accumulator, whatever format its operands were narrowed to first: a change
  of float format is the identity on the extended reals, and both sums run over `k` in the same order.
-/
import proofs.«108367_j52364241273249_1_alg».proof.Proof.LibPlainDotAny

noncomputable section

open scoped BigOperators

namespace Idealize.ShloMosaic.PlainDot

open Idealize.ShloMosaic Idealize.ShloMosaic.ValueIdx

/-- Entry `(r, c)` of the product: `∑ k, A (r, k) * B (k, c)`. -/
def plainProd (M K N : Nat) (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The host's product over a record that is the plain one is `plainProd`. -/
theorem hostDot_eq_plainProd (M K N : Nat) {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) :
    Host.dotGeneral d prec A B = plainProd M K N A B := by
  subst hd
  funext j
  exact dotGeneral_apply_any M K N prec _ A B j

/-- The kernel's product into a zero accumulator over a record that is the plain one, at an entry. -/
theorem matmulZero_apply (M K N : Nat) {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = plainProd M K N A B j := by
  subst hd
  exact matmul_zero_apply_any M K N prec A B j

end Idealize.ShloMosaic.PlainDot

end
-- ==== Proof.HostChains.lean ====
/-
  The host operations around the two matrix products, on both sides.

  The kernel program computes the first product `x · W0` in a kernel region, then runs 59 host operations (the degree
  count, its inverse square root, the gather of source rows, their scaling, the scatter-add onto target rows, the bias
  and the rectifier), computes the second product `h · W1` in a second region, and runs the same kind of chain once more.
  The reference runs the very same host operations, in another order and with a host `dot_general` where the kernel
  program has a region. Cut the reference's list of operations after the rectifier: its first 63 operations and the
  kernel program's first chain are then the same function of the first product and of the edge list and bias they read,
  and its last 60 operations and the kernel program's second chain the same function of the second product.

  Both facts hold at every float family, so they are stated there: each side's fold of operation results is read back
  as one composed term of the contents it starts from, the hypotheses identify those contents, and the two terms are
  then one term. Nothing here looks inside a gather, a scatter-add or a product.
-/
import proofs.«108367_j52364241273249_1_alg».proof.Proof.Gen.KernelIdeal.Launch
import proofs.«108367_j52364241273249_1_alg».proof.Proof.RefRun
import Idealize.ShloMosaic.Lib.StableHlo.Run
import Idealize.ShloMosaic.Lib.Pipeline.Frame

set_option maxRecDepth 16384

noncomputable section

namespace Cert.HostChains

open Idealize.ShloMosaic Idealize.ShloMosaic.TcCoe Idealize.SL.Sem Idealize.ShloMosaic.StableHlo

variable {F : FTy → Type} [FloatOps F]

/-- The kernel program's host operations between its two regions, from the contents `WK` at the first region's exit. -/
abbrev afterFirstChain (WK : Valuation Cert.KernelIdeal.τ Cert.KernelIdeal.sig (Elt F)) :
    Valuation Cert.KernelIdeal.τ Cert.KernelIdeal.sig (Elt F) :=
  after Cert.KernelIdeal.Gen.hostOps1_3 (after Cert.KernelIdeal.Gen.hostOps1_2 (after Cert.KernelIdeal.Gen.hostOps1_1
    (after Cert.KernelIdeal.Gen.hostOps1 WK)))

/-- The kernel program's host operations after its second region, from the contents `WK` at that region's exit. -/
abbrev afterSecondChain (WK : Valuation Cert.KernelIdeal.τ Cert.KernelIdeal.sig (Elt F)) :
    Valuation Cert.KernelIdeal.τ Cert.KernelIdeal.sig (Elt F) :=
  after Cert.KernelIdeal.Gen.hostOps2_2 (after Cert.KernelIdeal.Gen.hostOps2_1 (after Cert.KernelIdeal.Gen.hostOps2 WK))

/-- The reference's operations up to and including the rectifier of layer 0 (its first 63). -/
abbrev refHead : List (HloOp Cert.ReferenceIdeal.τ Cert.ReferenceIdeal.sig (Elt F)) := List.take 63 Cert.ReferenceIdeal.RunP.ops
/-- The reference's operations of layer 1 (its last 60). -/
abbrev refTail : List (HloOp Cert.ReferenceIdeal.τ Cert.ReferenceIdeal.sig (Elt F)) := List.drop 63 Cert.ReferenceIdeal.RunP.ops

/-- The reference's run is its first 63 operations followed by its last 60. -/
theorem after_ref_split (WR : Valuation Cert.ReferenceIdeal.τ Cert.ReferenceIdeal.sig (Elt F)) :
    after Cert.ReferenceIdeal.RunP.ops WR = after refTail (after refHead WR) := by
  rw [← StableHlo.after_append, List.take_append_drop]

set_option maxHeartbeats 4000000 in
/-- LAYER 0. If the first region left in `main_v0` the product the reference computes on the host, and the two sides
    agree on the first edge list and the first bias, then the rectified layer-0 activations agree. -/
theorem first_layer
    (WK : Valuation Cert.KernelIdeal.τ Cert.KernelIdeal.sig (Elt F)) (WR : Valuation Cert.ReferenceIdeal.τ Cert.ReferenceIdeal.sig (Elt F))
    (h0 : WK (Proc.devRef .tc Cert.KernelIdeal.main_v0)
        = Host.dotGeneral Cert.ReferenceIdeal.dot_S409600x100_S100x256_S409600x256_1_0_0_1_n_n none
            (WR (Proc.devRef .tc Cert.ReferenceIdeal.main_arg0)) (WR (Proc.devRef .tc Cert.ReferenceIdeal.main_arg3)))
    (h1 : WK (Proc.devRef .tc Cert.KernelIdeal.main_arg1) = WR (Proc.devRef .tc Cert.ReferenceIdeal.main_arg1))
    (h4 : WK (Proc.devRef .tc Cert.KernelIdeal.main_arg4) = WR (Proc.devRef .tc Cert.ReferenceIdeal.main_arg4)) :
    afterFirstChain WK (Proc.devRef .tc Cert.KernelIdeal.main_v46)
      = after refHead WR (Proc.devRef .tc Cert.ReferenceIdeal.main_v46) := by
  simp only [afterFirstChain, refHead, Cert.ReferenceIdeal.RunP.ops, List.take_succ_cons, List.take_zero]
  simp only [Cert.KernelIdeal.Gen.hostOps1, Cert.KernelIdeal.Gen.hostOps1_1, Cert.KernelIdeal.Gen.hostOps1_2, Cert.KernelIdeal.Gen.hostOps1_3]
  after_results_simp
  rw [h0, h1, h4]
  rfl

set_option maxHeartbeats 4000000 in
/-- LAYER 1. If the second region left in `main_v47` the product the reference computes on the host from its own
    layer-0 activations, and the two sides agree on the second edge list and the second bias, then the results agree. -/
theorem second_layer
    (WK : Valuation Cert.KernelIdeal.τ Cert.KernelIdeal.sig (Elt F)) (WR : Valuation Cert.ReferenceIdeal.τ Cert.ReferenceIdeal.sig (Elt F))
    (hT : WK (Proc.devRef .tc Cert.KernelIdeal.main_v47)
        = Host.dotGeneral Cert.ReferenceIdeal.dot_S40960x256_S256x47_S40960x47_1_0_0_1_n_n none
            (WR (Proc.devRef .tc Cert.ReferenceIdeal.main_v46)) (WR (Proc.devRef .tc Cert.ReferenceIdeal.main_arg5)))
    (h2 : WK (Proc.devRef .tc Cert.KernelIdeal.main_arg2) = WR (Proc.devRef .tc Cert.ReferenceIdeal.main_arg2))
    (h6 : WK (Proc.devRef .tc Cert.KernelIdeal.main_arg6) = WR (Proc.devRef .tc Cert.ReferenceIdeal.main_arg6)) :
    afterSecondChain WK (Proc.devRef .tc Cert.KernelIdeal.main_v92)
      = after refTail WR (Proc.devRef .tc Cert.ReferenceIdeal.main_v92) := by
  simp only [afterSecondChain, refTail, Cert.ReferenceIdeal.RunP.ops, List.drop_succ_cons, List.drop_zero]
  simp only [Cert.KernelIdeal.Gen.hostOps2, Cert.KernelIdeal.Gen.hostOps2_1, Cert.KernelIdeal.Gen.hostOps2_2]
  after_results_simp
  rw [hT, h2, h6]
  rfl

/-! ## What the first chains leave alone: the arguments that only layer 1 reads -/

set_option maxHeartbeats 4000000 in
theorem firstChain_arg2 (WK : Valuation Cert.KernelIdeal.τ Cert.KernelIdeal.sig (Elt F)) :
    afterFirstChain WK (Proc.devRef .tc Cert.KernelIdeal.main_arg2) = WK (Proc.devRef .tc Cert.KernelIdeal.main_arg2) := by
  simp only [afterFirstChain, Cert.KernelIdeal.Gen.hostOps1, Cert.KernelIdeal.Gen.hostOps1_1, Cert.KernelIdeal.Gen.hostOps1_2, Cert.KernelIdeal.Gen.hostOps1_3]
  after_results_simp

set_option maxHeartbeats 4000000 in
theorem firstChain_arg5 (WK : Valuation Cert.KernelIdeal.τ Cert.KernelIdeal.sig (Elt F)) :
    afterFirstChain WK (Proc.devRef .tc Cert.KernelIdeal.main_arg5) = WK (Proc.devRef .tc Cert.KernelIdeal.main_arg5) := by
  simp only [afterFirstChain, Cert.KernelIdeal.Gen.hostOps1, Cert.KernelIdeal.Gen.hostOps1_1, Cert.KernelIdeal.Gen.hostOps1_2, Cert.KernelIdeal.Gen.hostOps1_3]
  after_results_simp

set_option maxHeartbeats 4000000 in
theorem firstChain_arg6 (WK : Valuation Cert.KernelIdeal.τ Cert.KernelIdeal.sig (Elt F)) :
    afterFirstChain WK (Proc.devRef .tc Cert.KernelIdeal.main_arg6) = WK (Proc.devRef .tc Cert.KernelIdeal.main_arg6) := by
  simp only [afterFirstChain, Cert.KernelIdeal.Gen.hostOps1, Cert.KernelIdeal.Gen.hostOps1_1, Cert.KernelIdeal.Gen.hostOps1_2, Cert.KernelIdeal.Gen.hostOps1_3]
  after_results_simp

set_option maxHeartbeats 4000000 in
theorem refHead_arg2 (WR : Valuation Cert.ReferenceIdeal.τ Cert.ReferenceIdeal.sig (Elt F)) :
    after refHead WR (Proc.devRef .tc Cert.ReferenceIdeal.main_arg2) = WR (Proc.devRef .tc Cert.ReferenceIdeal.main_arg2) := by
  simp only [refHead, Cert.ReferenceIdeal.RunP.ops, List.take_succ_cons, List.take_zero]
  after_results_simp

set_option maxHeartbeats 4000000 in
theorem refHead_arg5 (WR : Valuation Cert.ReferenceIdeal.τ Cert.ReferenceIdeal.sig (Elt F)) :
    after refHead WR (Proc.devRef .tc Cert.ReferenceIdeal.main_arg5) = WR (Proc.devRef .tc Cert.ReferenceIdeal.main_arg5) := by
  simp only [refHead, Cert.ReferenceIdeal.RunP.ops, List.take_succ_cons, List.take_zero]
  after_results_simp

set_option maxHeartbeats 4000000 in
theorem refHead_arg6 (WR : Valuation Cert.ReferenceIdeal.τ Cert.ReferenceIdeal.sig (Elt F)) :
    after refHead WR (Proc.devRef .tc Cert.ReferenceIdeal.main_arg6) = WR (Proc.devRef .tc Cert.ReferenceIdeal.main_arg6) := by
  simp only [refHead, Cert.ReferenceIdeal.RunP.ops, List.take_succ_cons, List.take_zero]
  after_results_simp

/-! ## The reference's result, as the fold of its operations -/

set_option maxRecDepth 8192 in
set_option maxHeartbeats 49200000 in
/-- The reference's composed result term is the fold of its operations' results read at the result buffer. -/
theorem refResult_eq (m : (ℓ : Loc Cert.ReferenceIdeal.nD Cert.ReferenceIdeal.τ Cert.ReferenceIdeal.sig) → Buf (Elt F) ℓ) (c : Dev Cert.ReferenceIdeal.nD) :
    Cert.ReferenceIdeal.RunP.res_main_v92 m c
      = after Cert.ReferenceIdeal.RunP.ops (launchContents m c) (Proc.devRef .tc Cert.ReferenceIdeal.main_v92) := by
  symm
  after_results_simp <;> rfl <;> (unfold Cert.ReferenceIdeal.RunP.res_main_v92; rfl)

end Cert.HostChains

end
-- ==== Proof.RegionArrays.lean ====
/-
  What each of the two matrix-product regions leaves in its output array, as ONE function of the region's two input
  arrays.

  Region 0 walks fifty row blocks of 8192 rows. At point `t` it reads row block `t` of the left array (409600×100) and
  all of the right array (100×256), and writes row block `t` of the output: entry `(p, q)` of the block is
  `∑ k, left (p, k) * right (k, q)`, because narrowing an operand's float format is the identity on the extended reals
  and the product accumulates into zero. A block's coordinate in the array is its block index times the block's extent
  plus the coordinate inside the block, so that entry is entry `(t * 8192 + p, q)` of the product of the two WHOLE
  arrays. Every row `r` lies in row block `r / 8192`, so the blocks cover the output array, which therefore ends as the
  plain product of the two whole arrays.

  Region 1 is the same with ten row blocks of 4096 rows, a left array of 40960×256 and a right array of 256×47; its body
  first casts the left block to its own shape, which is the identity.
-/
import proofs.«108367_j52364241273249_1_alg».proof.Proof.Gen.KernelIdeal.Frame
import proofs.«108367_j52364241273249_1_alg».proof.Proof.PlainProduct
import Idealize.ShloMosaic.Lib.Pipeline.Value
import Idealize.ShloMosaic.Lib.ValueIdx

set_option maxRecDepth 16384

noncomputable section

open scoped BigOperators

namespace Cert.KernelIdeal.RegionArrays

open Idealize.ShloMosaic Idealize.ShloMosaic.TcCoe Idealize.SL.Sem Idealize.ShloMosaic.ValueIdx Idealize.ShloMosaic.PlainDot
open Cert.KernelIdeal Cert.KernelIdeal.Gen

variable (V : (c : Dev nD) → (b : Ref sig .tc) → Buf (Elt Ideal) ((c : Thread nD τ).loc b))

/-- The whole-block rectangle's offsets are all zero. -/
theorem zero_offsets : (![0, 0] : Fin 2 → Nat) = fun _ => 0 := funext fun a => by fin_cases a <;> rfl

/-- Products of equal factors are equal. -/
theorem mul_eq_mul_of_eq {a b a' b' : EReal} (ha : a = a') (hb : b = b') : a * b = a' * b' := by rw [ha, hb]

/-! ## Region 0: rows of `x` times `W0`, fifty blocks of 8192 rows -/

/-- The block's arithmetic at an entry: both operands are narrowed (the identity on the extended reals) and multiplied
    into a zero accumulator, so entry `(p, q)` is `∑ k, x0 (p, k) * x1 (k, q)`. -/
theorem pay0_apply (x0 : Vec Ideal S8192x100 .f32) (x1 : Vec Ideal S100x256 .f32) (j : S8192x256.Idx) :
    k0_pay1 x0 x1 j = ∑ k : Fin 100, x0 (ix2 (j 0) k) * x1 (ix2 k (j 1)) := by
  unfold k0_pay1
  exact matmulZero_apply 8192 100 256 _ rfl none _ _ j

/-- The block indices over the grid: the row block of the left operand is the output's, every other block index is
    zero, and the output's row block is below fifty. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every one of the fifty row blocks is some point's output block. -/
theorem index_onto0 : ∀ q : Fin 50, ∃ t : Fin cfg0.N, win0_2.index t = ![q.val, 0] :=
  (by decide +kernel : ∀ q : Fin 50, ∃ t : Fin grid0.N, win0_2.index t = ![q.val, 0])

/-- What point `t` writes back is block `t` of the product of the two whole arrays. -/
theorem block_eq0 (c : Dev nD) (t : Fin cfg0.N) :
    (dat0 (F := Ideal) V c).flushed 2 t
      = ((cfg0.win 2).blk t).view.read (Elt Ideal) (plainProd 409600 100 256 (V c main_arg0) (V c main_arg3)) := by
  show (cfg0.win 2).cut (grid0.coords t) ((dat0 V c).after 2 t) = _
  rw [after0_2]
  unfold out0_2
  rw [View.canon_unit_zero zero_offsets]
  simp only [View.ld_unit_zero (S := S8192x100) zero_offsets, View.ld_unit_zero (S := S100x256) zero_offsets]
  obtain ⟨e0, e1, e2, e3, e4, e5⟩ := index_facts0 t
  funext j
  refine (pay0_apply (iblk0 V c 0 t) (iblk0 V c 1 t) j).trans ?_
  show _ = plainProd 409600 100 256 (V c main_arg0) (V c main_arg3) (((cfg0.win 2).blk t).view.emb j)
  unfold plainProd
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 100 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 100 + 1 * k.val = k.val; omega
    | ⟨1, _⟩ => show win0_1.index t (1 : Fin 2) * 256 + 1 * (j 1).val = win0_2.index t (1 : Fin 2) * 256 + 1 * (j 1).val; omega
  exact mul_eq_mul_of_eq (congrArg (V c main_arg0) h0) (congrArg (V c main_arg3) h1)

/-- An index of the output array is in point `t`'s block iff each coordinate is in the block's range on its axis. -/
theorem mem_block0 (t : Fin cfg0.N) (i : S409600x256.Idx) :
    i ∈ ((cfg0.win 2).blk t).view.set ↔ ∀ a : Fin 2, win0_2.index t a * S8192x256.size a ≤ (i a).val ∧ (i a).val < win0_2.index t a * S8192x256.size a + S8192x256.size a := by
  show i ∈ ((View.whole main_v0).slice (win0_2.rect t)).set ↔ _
  rw [View.set_slice_whole, Rect.mem_set_unit]
  exact Iff.rfl

/-- Every index of the output array is in some point's block: row `r` is in row block `r / 8192`. -/
theorem cover0 (i : S409600x256.Idx) :
    ∃ t : Fin cfg0.N, (cfg0.win 2).flush t = true ∧ i ∈ ((cfg0.win 2).blk t).view.set := by
  have hi0 : (i 0).val < 409600 := (i 0).isLt
  have hi1 : (i 1).val < 256 := (i 1).isLt
  obtain ⟨t, ht⟩ := index_onto0 ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 256 ≤ (i 1).val ∧ (i 1).val < win0_2.index t (1 : Fin 2) * 256 + 256; omega

/-- Region 0 leaves the product of the two whole arrays in its output array. -/
theorem region0_array (c : Dev nD) :
    (dat0 (F := Ideal) V c).arrAt 2 cfg0.N = plainProd 409600 100 256 (V c main_arg0) (V c main_arg3) :=
  (dat0 (F := Ideal) V c).arrAt_eq_of_cover 2 _ (fun t _ => block_eq0 V c t) cover0

/-! ## Region 1: rows of `h` times `W1`, ten blocks of 4096 rows -/

/-- The block's arithmetic at an entry: the left block is cast to its own shape (the identity), both operands are narrowed (the identity on the
    extended reals) and multiplied
    into a zero accumulator, so entry `(p, q)` is `∑ k, x0 (p, k) * x1 (k, q)`. -/
theorem pay1_apply (x0 : Vec Ideal S4096x256 .f32) (x1 : Vec Ideal S256x47 .f32) (j : S4096x47.Idx) :
    k1_pay1 x0 x1 j = ∑ k : Fin 256, x0 (ix2 (j 0) k) * x1 (ix2 k (j 1)) := by
  unfold k1_pay1
  rw [shapeCast_self]
  exact matmulZero_apply 4096 256 47 _ rfl none _ _ j

/-- The block indices over the grid: the row block of the left operand is the output's, every other block index is
    zero, and the output's row block is below ten. -/
theorem index_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some point's output block. -/
theorem index_onto1 : ∀ q : Fin 10, ∃ t : Fin cfg1.N, win1_2.index t = ![q.val, 0] :=
  (by decide +kernel : ∀ q : Fin 10, ∃ t : Fin grid1.N, win1_2.index t = ![q.val, 0])

/-- What point `t` writes back is block `t` of the product of the two whole arrays. -/
theorem block_eq1 (c : Dev nD) (t : Fin cfg1.N) :
    (dat1 (F := Ideal) V c).flushed 2 t
      = ((cfg1.win 2).blk t).view.read (Elt Ideal) (plainProd 40960 256 47 (V c main_v46) (V c main_arg5)) := by
  show (cfg1.win 2).cut (grid1.coords t) ((dat1 V c).after 2 t) = _
  rw [after1_2]
  unfold out1_2
  rw [View.canon_unit_zero zero_offsets]
  simp only [View.ld_unit_zero (S := S4096x256) zero_offsets, View.ld_unit_zero (S := S256x47) zero_offsets]
  obtain ⟨e0, e1, e2, e3, e4, e5⟩ := index_facts1 t
  funext j
  refine (pay1_apply (iblk1 V c 0 t) (iblk1 V c 1 t) j).trans ?_
  show _ = plainProd 40960 256 47 (V c main_v46) (V c main_arg5) (((cfg1.win 2).blk t).view.emb j)
  unfold plainProd
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 4096 + 1 * (j 0).val = win1_2.index t (0 : Fin 2) * 4096 + 1 * (j 0).val; omega
    | ⟨1, _⟩ => show win1_0.index t (1 : Fin 2) * 256 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 256 + 1 * k.val = k.val; omega
    | ⟨1, _⟩ => show win1_1.index t (1 : Fin 2) * 47 + 1 * (j 1).val = win1_2.index t (1 : Fin 2) * 47 + 1 * (j 1).val; omega
  exact mul_eq_mul_of_eq (congrArg (V c main_v46) h0) (congrArg (V c main_arg5) h1)

/-- An index of the output array is in point `t`'s block iff each coordinate is in the block's range on its axis. -/
theorem mem_block1 (t : Fin cfg1.N) (i : S40960x47.Idx) :
    i ∈ ((cfg1.win 2).blk t).view.set ↔ ∀ a : Fin 2, win1_2.index t a * S4096x47.size a ≤ (i a).val ∧ (i a).val < win1_2.index t a * S4096x47.size a + S4096x47.size a := by
  show i ∈ ((View.whole main_v47).slice (win1_2.rect t)).set ↔ _
  rw [View.set_slice_whole, Rect.mem_set_unit]
  exact Iff.rfl

/-- Every index of the output array is in some point's block: row `r` is in row block `r / 4096`. -/
theorem cover1 (i : S40960x47.Idx) :
    ∃ t : Fin cfg1.N, (cfg1.win 2).flush t = true ∧ i ∈ ((cfg1.win 2).blk t).view.set := by
  have hi0 : (i 0).val < 40960 := (i 0).isLt
  have hi1 : (i 1).val < 47 := (i 1).isLt
  obtain ⟨t, ht⟩ := index_onto1 ⟨(i 0).val / 4096, by omega⟩
  have q0 : win1_2.index t (0 : Fin 2) = (i 0).val / 4096 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 47 ≤ (i 1).val ∧ (i 1).val < win1_2.index t (1 : Fin 2) * 47 + 47; omega

/-- Region 1 leaves the product of the two whole arrays in its output array. -/
theorem region1_array (c : Dev nD) :
    (dat1 (F := Ideal) V c).arrAt 2 cfg1.N = plainProd 40960 256 47 (V c main_v46) (V c main_arg5) :=
  (dat1 (F := Ideal) V c).arrAt_eq_of_cover 2 _ (fun t _ => block_eq1 V c t) cover1

end Cert.KernelIdeal.RegionArrays

end
-- ==== Proof.Bridge.lean ====
/-
  The kernel program's result is the reference's result.

  Walk the kernel program's run boundary by boundary. At the first region's exit the array `main_v0` holds the whole
  product `x · W0` of the launch contents (each grid point writes its block of 8192 rows of that one product, and the
  blocks tile the array), and a product into a zero accumulator is, on the extended reals, the same sum over the
  shared axis as the host's `dot_general`. The 59 host operations that follow are the reference's first 63 operations
  with that product in the place of the reference's own: so the second region is entered with the reference's
  rectified layer-0 activations in `main_v46` and the untouched weight `W1`. Its exit leaves the product of those
  two, again the reference's host product, and the last host chain is the reference's last 60 operations of it.
  No operation and no region writes an argument, so each side reads the edge lists, weights and biases as launched,
  and the launches agree on them.
-/
import proofs.«108367_j52364241273249_1_alg».proof.Proof.Gen.KernelIdeal.Frame
import proofs.«108367_j52364241273249_1_alg».proof.Proof.PlainProduct
import proofs.«108367_j52364241273249_1_alg».proof.Proof.HostChains
import proofs.«108367_j52364241273249_1_alg».proof.Proof.RegionArrays

set_option maxRecDepth 16384

noncomputable section

namespace Cert.Bridge

open Idealize.ShloMosaic Idealize.ShloMosaic.TcCoe Idealize.SL.Sem Idealize.ShloMosaic.StableHlo Idealize.ShloMosaic.PlainDot
open Cert.KernelIdeal Cert.KernelIdeal.Gen

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- At the first region's exit its output array holds the whole product `x · W0` of the launch contents. -/
theorem exit0_product (c : Dev nD) :
    W1 m ρ c (Proc.devRef .tc main_v0)
      = plainProd 409600 100 256 (m ((c.tc : Thread nD τ).loc main_arg0)) (m ((c.tc : Thread nD τ).loc main_arg3)) :=
  (W1_arr m ρ c 2).trans (Cert.KernelIdeal.RegionArrays.region0_array (V0 m ρ) c)

/-- The first region writes no argument: at its exit an argument's buffer is as launched. -/
theorem exit0_arg1 (c : Dev nD) : W1 m ρ c (Proc.devRef .tc main_arg1) = m ((c.tc : Thread nD τ).loc main_arg1) :=
  W1_of_ne m ρ c main_arg1 (by decide)
theorem exit0_arg2 (c : Dev nD) : W1 m ρ c (Proc.devRef .tc main_arg2) = m ((c.tc : Thread nD τ).loc main_arg2) :=
  W1_of_ne m ρ c main_arg2 (by decide)
theorem exit0_arg4 (c : Dev nD) : W1 m ρ c (Proc.devRef .tc main_arg4) = m ((c.tc : Thread nD τ).loc main_arg4) :=
  W1_of_ne m ρ c main_arg4 (by decide)
theorem exit0_arg5 (c : Dev nD) : W1 m ρ c (Proc.devRef .tc main_arg5) = m ((c.tc : Thread nD τ).loc main_arg5) :=
  W1_of_ne m ρ c main_arg5 (by decide)
theorem exit0_arg6 (c : Dev nD) : W1 m ρ c (Proc.devRef .tc main_arg6) = m ((c.tc : Thread nD τ).loc main_arg6) :=
  W1_of_ne m ρ c main_arg6 (by decide)

/-! ## The two sides meet -/

section Meet

variable (c : Dev nD)
variable (ha0 : m' ((c.tc : Thread Cert.ReferenceIdeal.nD Cert.ReferenceIdeal.τ).loc Cert.ReferenceIdeal.main_arg0) = m ((c.tc : Thread nD τ).loc main_arg0))
variable (ha1 : m' ((c.tc : Thread Cert.ReferenceIdeal.nD Cert.ReferenceIdeal.τ).loc Cert.ReferenceIdeal.main_arg1) = m ((c.tc : Thread nD τ).loc main_arg1))
variable (ha2 : m' ((c.tc : Thread Cert.ReferenceIdeal.nD Cert.ReferenceIdeal.τ).loc Cert.ReferenceIdeal.main_arg2) = m ((c.tc : Thread nD τ).loc main_arg2))
variable (ha3 : m' ((c.tc : Thread Cert.ReferenceIdeal.nD Cert.ReferenceIdeal.τ).loc Cert.ReferenceIdeal.main_arg3) = m ((c.tc : Thread nD τ).loc main_arg3))
variable (ha4 : m' ((c.tc : Thread Cert.ReferenceIdeal.nD Cert.ReferenceIdeal.τ).loc Cert.ReferenceIdeal.main_arg4) = m ((c.tc : Thread nD τ).loc main_arg4))
variable (ha5 : m' ((c.tc : Thread Cert.ReferenceIdeal.nD Cert.ReferenceIdeal.τ).loc Cert.ReferenceIdeal.main_arg5) = m ((c.tc : Thread nD τ).loc main_arg5))
variable (ha6 : m' ((c.tc : Thread Cert.ReferenceIdeal.nD Cert.ReferenceIdeal.τ).loc Cert.ReferenceIdeal.main_arg6) = m ((c.tc : Thread nD τ).loc main_arg6))

include ha0 ha3 in
/-- The first region's output is the reference's first host product, of arguments that agree. -/
theorem exit0_hostProduct :
    W1 m ρ c (Proc.devRef .tc main_v0)
      = Host.dotGeneral (F := Ideal) (φ₁ := .f32) (φ₂ := .f32) Cert.ReferenceIdeal.dot_S409600x100_S100x256_S409600x256_1_0_0_1_n_n none
          (launchContents m' c (Proc.devRef .tc Cert.ReferenceIdeal.main_arg0)) (launchContents m' c (Proc.devRef .tc Cert.ReferenceIdeal.main_arg3)) := by
  rw [exit0_product, ← ha0, ← ha3]
  exact (hostDot_eq_plainProd 409600 100 256 Cert.ReferenceIdeal.dot_S409600x100_S100x256_S409600x256_1_0_0_1_n_n rfl none _ _).symm

include ha0 ha1 ha3 ha4 in
/-- The second region is entered with the reference's rectified layer-0 activations in its first window's array. -/
theorem entry1_acts :
    W5 m ρ c (Proc.devRef .tc main_v46)
      = after Cert.HostChains.refHead (launchContents m' c) (Proc.devRef .tc Cert.ReferenceIdeal.main_v46) :=
  Cert.HostChains.first_layer (W1 m ρ c) (launchContents m' c) (exit0_hostProduct m ρ m' c ha0 ha3)
    ((exit0_arg1 m ρ c).trans ha1.symm) ((exit0_arg4 m ρ c).trans ha4.symm)

include ha5 in
theorem entry1_arg5 :
    W5 m ρ c (Proc.devRef .tc main_arg5)
      = after Cert.HostChains.refHead (launchContents m' c) (Proc.devRef .tc Cert.ReferenceIdeal.main_arg5) :=
  (Cert.HostChains.firstChain_arg5 (W1 m ρ c)).trans ((exit0_arg5 m ρ c).trans (ha5.symm.trans (Cert.HostChains.refHead_arg5 (launchContents m' c)).symm))

include ha2 in
theorem exit1_arg2 :
    W6 m ρ c (Proc.devRef .tc main_arg2)
      = after Cert.HostChains.refHead (launchContents m' c) (Proc.devRef .tc Cert.ReferenceIdeal.main_arg2) :=
  (W6_of_ne m ρ c main_arg2 (by decide)).trans ((Cert.HostChains.firstChain_arg2 (W1 m ρ c)).trans
    ((exit0_arg2 m ρ c).trans (ha2.symm.trans (Cert.HostChains.refHead_arg2 (launchContents m' c)).symm)))

include ha6 in
theorem exit1_arg6 :
    W6 m ρ c (Proc.devRef .tc main_arg6)
      = after Cert.HostChains.refHead (launchContents m' c) (Proc.devRef .tc Cert.ReferenceIdeal.main_arg6) :=
  (W6_of_ne m ρ c main_arg6 (by decide)).trans ((Cert.HostChains.firstChain_arg6 (W1 m ρ c)).trans
    ((exit0_arg6 m ρ c).trans (ha6.symm.trans (Cert.HostChains.refHead_arg6 (launchContents m' c)).symm)))

include ha0 ha1 ha3 ha4 ha5 in
/-- The second region's output is the reference's second host product. -/
theorem exit1_hostProduct :
    W6 m ρ c (Proc.devRef .tc main_v47)
      = Host.dotGeneral (F := Ideal) (φ₁ := .f32) (φ₂ := .f32) Cert.ReferenceIdeal.dot_S40960x256_S256x47_S40960x47_1_0_0_1_n_n none
          (after Cert.HostChains.refHead (launchContents m' c) (Proc.devRef .tc Cert.ReferenceIdeal.main_v46))
          (after Cert.HostChains.refHead (launchContents m' c) (Proc.devRef .tc Cert.ReferenceIdeal.main_arg5)) := by
  rw [← entry1_acts m ρ m' c ha0 ha1 ha3 ha4, ← entry1_arg5 m ρ m' c ha5]
  refine ((W6_arr m ρ c 2).trans (Cert.KernelIdeal.RegionArrays.region1_array (V5 m ρ) c)).trans ?_
  exact (hostDot_eq_plainProd 40960 256 47 Cert.ReferenceIdeal.dot_S40960x256_S256x47_S40960x47_1_0_0_1_n_n rfl none _ _).symm

include ha0 ha1 ha2 ha3 ha4 ha5 ha6 in
/-- THE RESULTS AGREE: what the kernel program's last boundary holds in the result buffer is the reference's composed
    result term, when the two launches agree on the seven arguments. -/
theorem result_agrees :
    W9 m ρ c (Proc.devRef .tc main_v92) = Cert.ReferenceIdeal.RunP.res_main_v92 m' c := by
  rw [Cert.HostChains.refResult_eq, Cert.HostChains.after_ref_split]
  exact Cert.HostChains.second_layer (W6 m ρ c) (after Cert.HostChains.refHead (launchContents m' c))
    (exit1_hostProduct m ρ m' c ha0 ha1 ha3 ha4 ha5) (exit1_arg2 m ρ m' c ha2) (exit1_arg6 m ρ m' c ha6)

end Meet

end Cert.Bridge

end
-- ==== Proof.lean ====
/-
  A two-layer graph convolution: `out = A1 · relu(A0 · (x · W0) + b0) · W1 + b1`, where each `A` is the normalised
  sampled adjacency applied by a gather of source rows, a scaling by `deg^(-1/2)[row] · deg^(-1/2)[col]` and a
  scatter-add onto target rows. The kernel program computes the two dense products `x · W0` and `h · W1` in kernel
  regions that tile the rows (operands narrowed to bf16, accumulated in f32 from zero) and everything else on the host;
  the reference computes the products by the host's `dot_general` and everything else by the same host operations.

  Over the extended reals a change of float format is the identity and both products are the plain sum over the
  shared axis, so each region's output array is the reference's host product of the same operands (RegionArrays,
  PlainProduct), and the host operations around the products are literally the reference's (HostChains): the results
  are one function of the arguments (Bridge). No law of arithmetic beyond that is used, so finiteness of the inputs
  is never opened. The frames of the two kernel programs are the generated ones; the reference's frame is its run with
  the result dropped; the idealization rewrote no operation, so there is nothing to preserve.
-/
import proofs.«108367_j52364241273249_1_alg».proof.Defs
import proofs.«108367_j52364241273249_1_alg».proof.Proof.Gen.Kernel
import proofs.«108367_j52364241273249_1_alg».proof.Proof.Gen.Kernel.Skeleton
import proofs.«108367_j52364241273249_1_alg».proof.Proof.Gen.Kernel.Launch
import proofs.«108367_j52364241273249_1_alg».proof.Proof.Gen.Kernel.Points
import proofs.«108367_j52364241273249_1_alg».proof.Proof.Gen.Kernel.Frame
import proofs.«108367_j52364241273249_1_alg».proof.Proof.Gen.KernelIdeal
import proofs.«108367_j52364241273249_1_alg».proof.Proof.Gen.KernelIdeal.Skeleton
import proofs.«108367_j52364241273249_1_alg».proof.Proof.Gen.KernelIdeal.Launch
import proofs.«108367_j52364241273249_1_alg».proof.Proof.Gen.KernelIdeal.Points
import proofs.«108367_j52364241273249_1_alg».proof.Proof.Gen.KernelIdeal.Frame
import proofs.«108367_j52364241273249_1_alg».proof.Proof.Gen.ReferenceIdeal
import proofs.«108367_j52364241273249_1_alg».proof.Proof.Gen.Pre_finite_inputs
import proofs.«108367_j52364241273249_1_alg».proof.Proof.RefRun
import proofs.«108367_j52364241273249_1_alg».proof.Proof.KernelRun
import proofs.«108367_j52364241273249_1_alg».proof.Proof.Bridge
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From launches that agree on the seven arguments both programs end with the same result array: the kernel
    program's is what its last boundary holds in the result buffer, and that is the reference's composed term. -/
theorem algebraic : Cert.algebraic_KernelIdeal_ReferenceIdeal := by
  intro m ρ m' ρ' _ hagree
  refine ⟨fun c => Cert.KernelIdeal.Gen.W9 m ρ c (Proc.devRef .tc Cert.KernelIdeal.main_v92),
    Cert.KernelIdeal.RunNamed.run_named m ρ, ?_⟩
  refine (θ_run Cert.ReferenceIdeal.defs _ _).mono (fun _ h c => ⟨(h c).1.trans ?_, (h c).2⟩)
    (Cert.ReferenceIdeal.RunP.run (F := Ideal) m' ρ')
  obtain ⟨ha0, ha1, ha2, ha3, ha4, ha5, ha6⟩ := hagree c
  exact (Cert.Bridge.result_agrees m ρ m' c ha0 ha1 ha2 ha3 ha4 ha5 ha6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
